-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256x4096 : Shape := ⟨2, ![256, 4096]⟩
abbrev S4096x256 : Shape := ⟨2, ![4096, 256]⟩
abbrev S1x256 : Shape := ⟨2, ![1, 256]⟩
abbrev S1x4096 : Shape := ⟨2, ![1, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S4096x256 : S_.BroadcastsInDim S4096x256 (![] : Fin 0 → Fin S4096x256.rank)
  reducesTo_S4096x256_S_d0_1 : S4096x256.ReducesTo [0, 1] S_
  bcast_S_S1x256 : S_.BroadcastsInDim S1x256 (![] : Fin 0 → Fin S1x256.rank)
  reducesTo_S1x256_S_d0_1 : S1x256.ReducesTo [0, 1] S_
  bcast_S_S1x4096 : S_.BroadcastsInDim S1x4096 (![] : Fin 0 → Fin S1x4096.rank)
  reducesTo_S1x4096_S_d0_1 : S1x4096.ReducesTo [0, 1] S_
  bcast_S_S4096 : S_.BroadcastsInDim S4096 (![] : Fin 0 → Fin S4096.rank)
  reducesTo_S4096_S_d0 : S4096.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1x4096 .f32) (main_arg12 : FVec F S1x256 .f32) (main_arg13 : FVec F S4096 .f32) (main_v48 : IVec S_ 1) (main_v49 : FVec F S1x4096 .f32) (main_v50 : FVec F S1x4096 .f32) : IVec S_ 1 :=
  let main_v51 : IVec S1x4096 1 := cmpf .olt main_v49 main_v50
  let main_c_19 : IVec S_ 1 := constantI S_ 1 1#1
  let main_v52 : IVec S_ 1 := (fun x v => Host.reduce IntOp.andi x v reducesTo_S1x4096_S_d0_1 h_S_) main_v51 main_c_19
  let main_v53 : IVec S_ 1 := andi main_v48 main_v52
  let main_v54 : FVec F S1x4096 .f32 := Host.absf main_arg11
  let main_cst_20 : FVec F S_ .f32 := constant S_ .f32 0x7F800000#32
  let main_v55 : FVec F S1x4096 .f32 := broadcastInDim S1x4096 ![] bcast_S_S1x4096 main_cst_20
  let main_v56 : IVec S1x4096 1 := cmpf .olt main_v54 main_v55
  let main_c_21 : IVec S_ 1 := constantI S_ 1 1#1
  let main_v57 : IVec S_ 1 := (fun x v => Host.reduce IntOp.andi x v reducesTo_S1x4096_S_d0_1 h_S_) main_v56 main_c_21
  let main_v58 : IVec S_ 1 := andi main_v53 main_v57
  let main_v59 : FVec F S1x256 .f32 := Host.absf main_arg12
  let main_cst_22 : FVec F S_ .f32 := constant S_ .f32 0x7F800000#32
  let main_v60 : FVec F S1x256 .f32 := broadcastInDim S1x256 ![] bcast_S_S1x256 main_cst_22
  let main_v61 : IVec S1x256 1 := cmpf .olt main_v59 main_v60
  let main_c_23 : IVec S_ 1 := constantI S_ 1 1#1
  let main_v62 : IVec S_ 1 := (fun x v => Host.reduce IntOp.andi x v reducesTo_S1x256_S_d0_1 h_S_) main_v61 main_c_23
  let main_v63 : IVec S_ 1 := andi main_v58 main_v62
  let main_v64 : FVec F S4096 .f32 := Host.absf main_arg13
  let main_cst_24 : FVec F S_ .f32 := constant S_ .f32 0x7F800000#32
  let main_v65 : FVec F S4096 .f32 := broadcastInDim S4096 ![] bcast_S_S4096 main_cst_24
  let main_v66 : IVec S4096 1 := cmpf .olt main_v64 main_v65
  let main_c_25 : IVec S_ 1 := constantI S_ 1 1#1
  let main_v67 : IVec S_ 1 := (fun x v => Host.reduce IntOp.andi x v reducesTo_S4096_S_d0 h_S_) main_v66 main_c_25
  fn_part4 (F := F) main_v63 main_v67

def fn_part2 {F : FTy → Type} [FloatOps F] (main_arg7 : FVec F S256x4096 .f32) (main_arg8 : FVec F S4096x256 .f32) (main_arg9 : FVec F S1x256 .f32) (main_arg10 : FVec F S1x4096 .f32) (main_arg11 : FVec F S1x4096 .f32) (main_arg12 : FVec F S1x256 .f32) (main_arg13 : FVec F S4096 .f32) (main_v33 : IVec S_ 1) : IVec S_ 1 :=
  let main_v34 : FVec F S256x4096 .f32 := Host.absf main_arg7
  let main_cst_12 : FVec F S_ .f32 := constant S_ .f32 0x7F800000#32
  let main_v35 : FVec F S256x4096 .f32 := broadcastInDim S256x4096 ![] bcast_S_S256x4096 main_cst_12
  let main_v36 : IVec S256x4096 1 := cmpf .olt main_v34 main_v35
  let main_c_13 : IVec S_ 1 := constantI S_ 1 1#1
  let main_v37 : IVec S_ 1 := (fun x v => Host.reduce IntOp.andi x v reducesTo_S256x4096_S_d0_1 h_S_) main_v36 main_c_13
  let main_v38 : IVec S_ 1 := andi main_v33 main_v37
  let main_v39 : FVec F S4096x256 .f32 := Host.absf main_arg8
  let main_cst_14 : FVec F S_ .f32 := constant S_ .f32 0x7F800000#32
  let main_v40 : FVec F S4096x256 .f32 := broadcastInDim S4096x256 ![] bcast_S_S4096x256 main_cst_14
  let main_v41 : IVec S4096x256 1 := cmpf .olt main_v39 main_v40
  let main_c_15 : IVec S_ 1 := constantI S_ 1 1#1
  let main_v42 : IVec S_ 1 := (fun x v => Host.reduce IntOp.andi x v reducesTo_S4096x256_S_d0_1 h_S_) main_v41 main_c_15
  let main_v43 : IVec S_ 1 := andi main_v38 main_v42
  let main_v44 : FVec F S1x256 .f32 := Host.absf main_arg9
  let main_cst_16 : FVec F S_ .f32 := constant S_ .f32 0x7F800000#32
  let main_v45 : FVec F S1x256 .f32 := broadcastInDim S1x256 ![] bcast_S_S1x256 main_cst_16
  let main_v46 : IVec S1x256 1 := cmpf .olt main_v44 main_v45
  let main_c_17 : IVec S_ 1 := constantI S_ 1 1#1
  let main_v47 : IVec S_ 1 := (fun x v => Host.reduce IntOp.andi x v reducesTo_S1x256_S_d0_1 h_S_) main_v46 main_c_17
  let main_v48 : IVec S_ 1 := andi main_v43 main_v47
  let main_v49 : FVec F S1x4096 .f32 := Host.absf main_arg10
  let main_cst_18 : FVec F S_ .f32 := constant S_ .f32 0x7F800000#32
  let main_v50 : FVec F S1x4096 .f32 := broadcastInDim S1x4096 ![] bcast_S_S1x4096 main_cst_18
  fn_part3 (F := F) main_arg11 main_arg12 main_arg13 main_v48 main_v49 main_v50

def fn_part1 {F : FTy → Type} [FloatOps F] (main_arg4 : FVec F S1x4096 .f32) (main_arg5 : FVec F S1x4096 .f32) (main_arg6 : FVec F S1x256 .f32) (main_arg7 : FVec F S256x4096 .f32) (main_arg8 : FVec F S4096x256 .f32) (main_arg9 : FVec F S1x256 .f32) (main_arg10 : FVec F S1x4096 .f32) (main_arg11 : FVec F S1x4096 .f32) (main_arg12 : FVec F S1x256 .f32) (main_arg13 : FVec F S4096 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  let main_v24 : FVec F S1x4096 .f32 := Host.absf main_arg5
  let main_cst_8 : FVec F S_ .f32 := constant S_ .f32 0x7F800000#32
  let main_v25 : FVec F S1x4096 .f32 := broadcastInDim S1x4096 ![] bcast_S_S1x4096 main_cst_8
  let main_v26 : IVec S1x4096 1 := cmpf .olt main_v24 main_v25
  let main_c_9 : IVec S_ 1 := constantI S_ 1 1#1
  let main_v27 : IVec S_ 1 := (fun x v => Host.reduce IntOp.andi x v reducesTo_S1x4096_S_d0_1 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4x2048x4096 .f32) (main_arg1 : FVec F S256x4096 .f32) (main_arg2 : FVec F S4096x256 .f32) (main_arg3 : FVec F S1x256 .f32) (main_arg4 : FVec F S1x4096 .f32) (main_arg5 : FVec F S1x4096 .f32) (main_arg6 : FVec F S1x256 .f32) (main_arg7 : FVec F S256x4096 .f32) (main_arg8 : FVec F S4096x256 .f32) (main_arg9 : FVec F S1x256 .f32) (main_arg10 : FVec F S1x4096 .f32) (main_arg11 : FVec F S1x4096 .f32) (main_arg12 : FVec F S1x256 .f32) (main_arg13 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_arg5 main_arg6 main_arg7 main_arg8 main_arg9 main_arg10 main_arg11 main_arg12 main_arg13 main_v13 main_v16
-- ==== Kernel.lean ====
abbrev S4x2048x4096 : Shape := ⟨3, ![4, 2048, 4096]⟩
abbrev S256x4096 : Shape := ⟨2, ![256, 4096]⟩
abbrev S4096x256 : Shape := ⟨2, ![4096, 256]⟩
abbrev S1x256 : Shape := ⟨2, ![1, 256]⟩
abbrev S1x4096 : Shape := ⟨2, ![1, 4096]⟩
abbrev S4096 : Shape := ⟨1, ![4096]⟩
abbrev S8192x4096 : Shape := ⟨2, ![8192, 4096]⟩
abbrev S512x4096 : Shape := ⟨2, ![512, 4096]⟩
abbrev S4096x1 : Shape := ⟨2, ![4096, 1]⟩
abbrev S4096x512 : Shape := ⟨2, ![4096, 512]⟩
abbrev S1x512 : Shape := ⟨2, ![1, 512]⟩
abbrev S512x512 : Shape := ⟨2, ![512, 512]⟩

abbrev nBuf : Space → Nat
  | .hbm => 41
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S256x4096, .f32⟩
  | .hbm, ⟨2, _⟩ => ⟨S4096x256, .f32⟩
  | .hbm, ⟨3, _⟩ => ⟨S1x256, .f32⟩
  | .hbm, ⟨4, _⟩ => ⟨S1x4096, .f32⟩
  | .hbm, ⟨5, _⟩ => ⟨S1x4096, .f32⟩
  | .hbm, ⟨6, _⟩ => ⟨S1x256, .f32⟩
  | .hbm, ⟨7, _⟩ => ⟨S256x4096, .f32⟩
  | .hbm, ⟨8, _⟩ => ⟨S4096x256, .f32⟩
  | .hbm, ⟨9, _⟩ => ⟨S1x256, .f32⟩
  | .hbm, ⟨10, _⟩ => ⟨S1x4096, .f32⟩
  | .hbm, ⟨11, _⟩ => ⟨S1x4096, .f32⟩
  | .hbm, ⟨12, _⟩ => ⟨S1x256, .f32⟩
  | .hbm, ⟨13, _⟩ => ⟨S4096, .f32⟩
  | .hbm, ⟨14, _⟩ => ⟨S8192x4096, .f32⟩
  | .hbm, ⟨15, _⟩ => ⟨S256x4096, .f32⟩
  | .hbm, ⟨16, _⟩ => ⟨S256x4096, .f32⟩
  | .hbm, ⟨17, _⟩ => ⟨S4096x256, .f32⟩
  | .hbm, ⟨18, _⟩ => ⟨S4096x256, .f32⟩
  | .hbm, ⟨19, _⟩ => ⟨S256x4096, .f32⟩
  | .hbm, ⟨20, _⟩ => ⟨S256x4096, .f32⟩
  | .hbm, ⟨21, _⟩ => ⟨S256x4096, .bf16⟩
  | .hbm, ⟨22, _⟩ => ⟨S256x4096, .f32⟩
  | .hbm, ⟨23, _⟩ => ⟨S256x4096, .f32⟩
  | .hbm, ⟨24, _⟩ => ⟨S256x4096, .bf16⟩
  | .hbm, ⟨25, _⟩ => ⟨S512x4096, .bf16⟩
  | .hbm, ⟨26, _⟩ => ⟨S4096x1, .f32⟩
  | .hbm, ⟨27, _⟩ => ⟨S4096x1, .f32⟩
  | .hbm, ⟨28, _⟩ => ⟨S4096x256, .f32⟩
  | .hbm, ⟨29, _⟩ => ⟨S4096x256, .f32⟩
  | .hbm, ⟨30, _⟩ => ⟨S4096x256, .bf16⟩
  | .hbm, ⟨31, _⟩ => ⟨S4096x256, .f32⟩
  | .hbm, ⟨32, _⟩ => ⟨S4096x256, .f32⟩
  | .hbm, ⟨33, _⟩ => ⟨S4096x256, .bf16⟩
  | .hbm, ⟨34, _⟩ => ⟨S4096x512, .bf16⟩
  | .hbm, ⟨35, _⟩ => ⟨S1x256, .f32⟩
  | .hbm, ⟨36, _⟩ => ⟨S1x256, .f32⟩
  | .hbm, ⟨37, _⟩ => ⟨S1x512, .f32⟩
  | .hbm, ⟨38, _⟩ => ⟨S1x4096, .f32⟩
  | .hbm, ⟨39, _⟩ => ⟨S8192x4096, .f32⟩
  | .hbm, ⟨40, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S1x512, .f32⟩
  | .local _ .vmem, ⟨4, _⟩ => ⟨S4096x512, .bf16⟩
  | .local _ .vmem, ⟨5, _⟩ => ⟨S1x4096, .f32⟩
  | .local _ .vmem, ⟨6, _⟩ => ⟨S512x4096, .f32⟩
  | .local _ .vmem, ⟨7, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x4096_S8192x4096 : S4x2048x4096.ShapeCasts S8192x4096
  bcast_S1x4096_S256x4096_0_1 : S1x4096.BroadcastsInDim S256x4096 (![0, 1] : Fin 2 → Fin S256x4096.rank)
  bitsLt_bf16_f32 : FTy.bits .bf16 < FTy.bits .f32
  concatenates_S256x4096_S256x4096_S512x4096_d0 : Shape.Concatenates [S256x4096, S256x4096] S512x4096 0
  shapeCasts_S1x4096_S4096x1 : S1x4096.ShapeCasts S4096x1
  bcast_S4096x1_S4096x256_0_1 : S4096x1.BroadcastsInDim S4096x256 (![0, 1] : Fin 2 → Fin S4096x256.rank)
  concatenates_S4096x256_S4096x256_S4096x512_d1 : Shape.Concatenates [S4096x256, S4096x256] S4096x512 1
  concatenates_S1x256_S1x256_S1x512_d1 : Shape.Concatenates [S1x256, S1x256] S1x512 1
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  shapeCasts_S8192x4096_S4x2048x4096 : S8192x4096.ShapeCasts S4x2048x4096
  dot_S512x4096_S512x4096_S512x512_1_1_0_0_n_n_wf : DotDims.WF S512x4096 S512x4096 S512x512 [1] [1] [0] [0] [] []
  dot_S512x512_S4096x512_S512x4096_1_1_0_0_n_n_wf : DotDims.WF S512x512 S4096x512 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x4096.size a
  hwx0_1 : ∀ i : grid0.Coords, EltTy.bits .bf16 = 32 ∨ (Rect.block (s := S512x4096) S512x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x512.size a
  hwx0_3 : ∀ i : grid0.Coords, EltTy.bits .bf16 = 32 ∨ (Rect.block (s := S4096x512) S4096x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S8192x4096.size a
  hwx0_5 : ∀ i : grid0.Coords, EltTy.bits .f32 = 32 ∨ (Rect.block (s := S8192x4096) S512x4096.size (cc0_transform_5 i) (hinb0_5 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf
def dot_S512x512_S4096x512_S512x4096_1_1_0_0_n_n : DotDims S512x512 S4096x512 S512x4096 where
  lhsContracting := [1]
  rhsContracting := [1]
  lhsNonContracting := [0]
  rhsNonContracting := [0]
  lhsBatch := []
  rhsBatch := []
  wf := dot_S512x512_S4096x512_S512x4096_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S4096x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S256x4096 : Shape := ⟨2, ![256, 4096]⟩
abbrev S4096x256 : Shape := ⟨2, ![4096, 256]⟩
abbrev S1x256 : Shape := ⟨2, ![1, 256]⟩
abbrev S1x4096 : Shape := ⟨2, ![1, 4096]⟩
abbrev S4096 : Shape := ⟨1, ![4096]⟩
abbrev S8192x4096 : Shape := ⟨2, ![8192, 4096]⟩
abbrev S8192x256 : Shape := ⟨2, ![8192, 256]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256x4096, .f32⟩
  | .hbm, ⟨2, _⟩ => ⟨S4096x256, .f32⟩
  | .hbm, ⟨3, _⟩ => ⟨S1x256, .f32⟩
  | .hbm, ⟨4, _⟩ => ⟨S1x4096, .f32⟩
  | .hbm, ⟨5, _⟩ => ⟨S1x4096, .f32⟩
  | .hbm, ⟨6, _⟩ => ⟨S1x256, .f32⟩
  | .hbm, ⟨7, _⟩ => ⟨S256x4096, .f32⟩
  | .hbm, ⟨8, _⟩ => ⟨S4096x256, .f32⟩
  | .hbm, ⟨9, _⟩ => ⟨S1x256, .f32⟩
  | .hbm, ⟨10, _⟩ => ⟨S1x4096, .f32⟩
  | .hbm, ⟨11, _⟩ => ⟨S1x4096, .f32⟩
  | .hbm, ⟨12, _⟩ => ⟨S1x256, .f32⟩
  | .hbm, ⟨13, _⟩ => ⟨S4096, .f32⟩
  | .hbm, ⟨14, _⟩ => ⟨S8192x4096, .f32⟩
  | .hbm, ⟨15, _⟩ => ⟨S256x4096, .f32⟩
  | .hbm, ⟨16, _⟩ => ⟨S4096x256, .f32⟩
  | .hbm, ⟨17, _⟩ => ⟨S8192x4096, .f32⟩
  | .hbm, ⟨18, _⟩ => ⟨S8192x4096, .f32⟩
  | .hbm, ⟨19, _⟩ => ⟨S4096x256, .f32⟩
  | .hbm, ⟨20, _⟩ => ⟨S8192x256, .f32⟩
  | .hbm, ⟨21, _⟩ => ⟨S1x256, .f32⟩
  | .hbm, ⟨22, _⟩ => ⟨S8192x256, .f32⟩
  | .hbm, ⟨23, _⟩ => ⟨S8192x256, .f32⟩
  | .hbm, ⟨24, _⟩ => ⟨S256x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S256x4096, .f32⟩
  | .hbm, ⟨29, _⟩ => ⟨S4096x256, .f32⟩
  | .hbm, ⟨30, _⟩ => ⟨S8192x4096, .f32⟩
  | .hbm, ⟨31, _⟩ => ⟨S8192x4096, .f32⟩
  | .hbm, ⟨32, _⟩ => ⟨S4096x256, .f32⟩
  | .hbm, ⟨33, _⟩ => ⟨S8192x256, .f32⟩
  | .hbm, ⟨34, _⟩ => ⟨S1x256, .f32⟩
  | .hbm, ⟨35, _⟩ => ⟨S8192x256, .f32⟩
  | .hbm, ⟨36, _⟩ => ⟨S8192x256, .f32⟩
  | .hbm, ⟨37, _⟩ => ⟨S256x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S1x4096, .f32⟩
  | .hbm, ⟨43, _⟩ => ⟨S8192x4096, .f32⟩
  | .hbm, ⟨44, _⟩ => ⟨S8192x4096, .f32⟩
  | .hbm, ⟨45, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S1x4096_S8192x4096_0_1 : S1x4096.BroadcastsInDim S8192x4096 (![0, 1] : Fin 2 → Fin S8192x4096.rank)
  transposes_S256x4096_S4096x256_1_0 : S256x4096.Transposes [1, 0] S4096x256
  bcast_S1x256_S8192x256_0_1 : S1x256.BroadcastsInDim S8192x256 (![0, 1] : Fin 2 → Fin S8192x256.rank)
  transposes_S4096x256_S256x4096_1_0 : S4096x256.Transposes [1, 0] S256x4096
  bcast_S4096_S1x4096_1 : S4096.BroadcastsInDim S1x4096 (![1] : Fin 1 → Fin S1x4096.rank)
  shapeCasts_S8192x4096_S4x2048x4096 : S8192x4096.ShapeCasts S4x2048x4096
  dot_S8192x4096_S4096x256_S8192x256_1_0_0_1_n_n_wf : DotDims.WF S8192x4096 S4096x256 S8192x256 [1] [0] [0] [1] [] []
  dot_S8192x256_S256x4096_S8192x4096_1_0_0_1_n_n_wf : DotDims.WF S8192x256 S256x4096 S8192x4096 [1] [0] [0] [1] [] []

variable [Facts₀]

def dot_S8192x4096_S4096x256_S8192x256_1_0_0_1_n_n : DotDims S8192x4096 S4096x256 S8192x256 where
  lhsContracting := [1]
  rhsContracting := [0]
  lhsNonContracting := [0]
  rhsNonContracting := [1]
  lhsBatch := []
  rhsBatch := []
  wf := dot_S8192x4096_S4096x256_S8192x256_1_0_0_1_n_n_wf
def dot_S8192x256_S256x4096_S8192x4096_1_0_0_1_n_n : DotDims S8192x256 S256x4096 S8192x4096 where
  lhsContracting := [1]
  rhsContracting := [0]
  lhsNonContracting := [0]
  rhsNonContracting := [1]
  lhsBatch := []
  rhsBatch := []
  wf := dot_S8192x256_S256x4096_S8192x4096_1_0_0_1_n_n_wf

class Facts : Prop extends Facts₀ where

variable [Facts]
-- ==== Proof.Spec.lean ====
/-
  The two programs as explicit formulas, entry by entry, on the extended reals.

  Write N = 8192 rows, K = 4096 input features, O = 4096 output features, S = 256 (the rank of each branch).
  One low-rank branch with sign-quantised factors is
      y[n, o] = u1[o] · Σ_s sign(U)[o, s] · (v1[s] · u2[s]) · Σ_k (x[n, k] · v2[k]) · sign(V)[s, k],
  and the result is the sum of two such branches plus a bias row.  The fused form contracts ONCE over the 2S = 512
  concatenated rank indices: with weights Vc[s, k], a rank scale sc[s] and weights Uc[o, s],
      z[n, o] = Σ_{s < 512} ((Σ_k x[n, k] · Vc[s, k]) · sc[s]) · Uc[o, s] + b[o].
  Nothing is proved here; the definitions fix the shapes and the order of the factors.
-/
import Idealize.ShloMosaic.PureOps.Ideal
import Idealize.ShloMosaic.Lib.ValueIdx

noncomputable section

namespace Cert.LowRank

open Idealize.ShloMosaic Idealize.ShloMosaic.ValueIdx

/-- A rank-2 array of extended reals over literal extents. -/
abbrev Arr2 (a b : Nat) : Type := (⟨2, ![a, b]⟩ : Shape).Idx → EReal
/-- A rank-1 array of extended reals. -/
abbrev Arr1 (a : Nat) : Type := (⟨1, ![a]⟩ : Shape).Idx → EReal

/-- The fused form at row `n`, column `o`: one contraction over the 512 concatenated rank indices. -/
def fusedVal (X : Arr2 8192 4096) (Vc : Arr2 512 4096) (sc : Arr2 1 512) (Uc : Arr2 4096 512) (b2 : Arr2 1 4096)
    (n : Fin 8192) (o : Fin 4096) : EReal :=
  (∑ s : Fin 512, ((∑ k : Fin 4096, X (ix2 n k) * Vc (ix2 s k)) * sc (ix2 0 s)) * Uc (ix2 o s)) + b2 (ix2 0 o)

/-- One branch at row `n`, column `o`, the factors in the order the reference multiplies them. -/
def branchVal (X : Arr2 8192 4096) (V : Arr2 256 4096) (U : Arr2 4096 256) (v1 : Arr2 1 256) (v2 u1 : Arr2 1 4096)
    (u2 : Arr2 1 256) (n : Fin 8192) (o : Fin 4096) : EReal :=
  (∑ s : Fin 256, ((∑ k : Fin 4096, (X (ix2 n k) * v2 (ix2 0 k)) * Ideal.sign (V (ix2 s k)))
      * (v1 (ix2 0 s) * u2 (ix2 0 s))) * Ideal.sign (U (ix2 o s))) * u1 (ix2 0 o)

/-- The two branches added, then the bias. -/
def twoBranchVal (X : Arr2 8192 4096) (V : Arr2 256 4096) (U : Arr2 4096 256) (v1 : Arr2 1 256) (v2 u1 : Arr2 1 4096)
    (u2 : Arr2 1 256) (VR : Arr2 256 4096) (UR : Arr2 4096 256) (v1R : Arr2 1 256) (v2R u1R : Arr2 1 4096)
    (u2R : Arr2 1 256) (b : Arr1 4096) (n : Fin 8192) (o : Fin 4096) : EReal :=
  (branchVal X V U v1 v2 u1 u2 n o + branchVal X VR UR v1R v2R u1R u2R n o) + b (ix1 o)

/-- Every entry of an array is a real number. -/
def AllReal {ι : Type} (x : ι → EReal) : Prop := ∀ i, x i ≠ ⊤ ∧ x i ≠ ⊥

end Cert.LowRank

end
-- ==== Proof.KernelArrays.lean ====
/-
  Names for the arrays of the fused program at their literal shapes: the fourteen arguments as launched, and the five
  arrays the contraction reads as the host lines before the call leave them (the activations re-laid as rows, the two
  stages' concatenated weights, the concatenated rank scale, the bias as a row).
-/
import proofs.«404562_j75127567941708_3_alg».proof.Proof.Gen.KernelIdeal.Frame
import proofs.«404562_j75127567941708_3_alg».proof.Proof.Spec

noncomputable section

namespace Cert.KernelIdeal.Arrays

open Cert.KernelIdeal Cert.KernelIdeal.Gen Cert.LowRank
open Idealize.ShloMosaic Idealize.ShloMosaic.TcCoe Idealize.SL.Sem

variable (m : (ℓ : Loc nD τ sig) → Buf (Elt Ideal) ℓ)

/-- The activations x, [4, 2048, 4096]. -/
abbrev argX (c : Dev nD) : (⟨3, ![4, 2048, 4096]⟩ : Shape).Idx → EReal := m ((c : Thread nD τ).loc main_arg0)
/-- First branch: V [256, 4096], U [4096, 256], v1 [1, 256], v2 [1, 4096], u1 [1, 4096], u2 [1, 256]. -/
abbrev argV (c : Dev nD) : Arr2 256 4096 := m ((c : Thread nD τ).loc main_arg1)
abbrev argU (c : Dev nD) : Arr2 4096 256 := m ((c : Thread nD τ).loc main_arg2)
abbrev argv1 (c : Dev nD) : Arr2 1 256 := m ((c : Thread nD τ).loc main_arg3)
abbrev argv2 (c : Dev nD) : Arr2 1 4096 := m ((c : Thread nD τ).loc main_arg4)
abbrev argu1 (c : Dev nD) : Arr2 1 4096 := m ((c : Thread nD τ).loc main_arg5)
abbrev argu2 (c : Dev nD) : Arr2 1 256 := m ((c : Thread nD τ).loc main_arg6)
/-- Second (residual) branch, the same shapes. -/
abbrev argVR (c : Dev nD) : Arr2 256 4096 := m ((c : Thread nD τ).loc main_arg7)
abbrev argUR (c : Dev nD) : Arr2 4096 256 := m ((c : Thread nD τ).loc main_arg8)
abbrev argv1R (c : Dev nD) : Arr2 1 256 := m ((c : Thread nD τ).loc main_arg9)
abbrev argv2R (c : Dev nD) : Arr2 1 4096 := m ((c : Thread nD τ).loc main_arg10)
abbrev argu1R (c : Dev nD) : Arr2 1 4096 := m ((c : Thread nD τ).loc main_arg11)
abbrev argu2R (c : Dev nD) : Arr2 1 256 := m ((c : Thread nD τ).loc main_arg12)
/-- The bias, [4096]. -/
abbrev argB (c : Dev nD) : Arr1 4096 := m ((c : Thread nD τ).loc main_arg13)

/-- What the call reads: the activations as 8192 rows, -/
abbrev rows (c : Dev nD) : Arr2 8192 4096 := V m c main_v0
/-- the first-stage weights of both branches stacked along the rank axis, [512, 4096], -/
abbrev vcat (c : Dev nD) : Arr2 512 4096 := V m c main_v11
/-- the rank scales side by side, [1, 512], -/
abbrev scale (c : Dev nD) : Arr2 1 512 := V m c main_v23
/-- the second-stage weights side by side along the rank axis, [4096, 512], -/
abbrev ucat (c : Dev nD) : Arr2 4096 512 := V m c main_v20
/-- and the bias as a row, [1, 4096]. -/
abbrev biasRow (c : Dev nD) : Arr2 1 4096 := V m c main_v24

end Cert.KernelIdeal.Arrays

end
-- ==== Proof.Payload.lean ====
/-
  What the kernel body stores, entry by entry, as a function of the five blocks it loads.

  With x the activation block [512, 4096], w1 the first-stage weights [512, 4096] (rank index first), g the rank scale
  [1, 512], w2 the second-stage weights [4096, 512] (output column first) and b the bias row [1, 4096], entry (p, q) of the
  stored block is
      Σ_{s < 512} ((Σ_{k < 4096} x[p, k] · w1[s, k]) · g[0, s]) · w2[q, s]  +  b[0, q]:
  both matrix products contract the LAST axis of both operands into a zero accumulator, and the narrowing of the
  operands to bf16 is the identity on the extended reals.
-/
import proofs.«404562_j75127567941708_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.TcCoe Idealize.ShloMosaic.ValueIdx

/-! ## The first product: rows of x against rows of w1 -/

theorem lhs_first_0 (j : S512x512.Idx) (q : dot_S512x4096_S512x4096_S512x512_1_1_0_0_n_n.contr.Idx) :
    (dot_S512x4096_S512x4096_S512x512_1_1_0_0_n_n.lhsIdx j q 0).val = (j 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl
theorem lhs_first_1 (j : S512x512.Idx) (q : dot_S512x4096_S512x4096_S512x512_1_1_0_0_n_n.contr.Idx) :
    (dot_S512x4096_S512x4096_S512x512_1_1_0_0_n_n.lhsIdx j q 1).val = (q ⟨0, by decide⟩).val :=
  dot_S512x4096_S512x4096_S512x512_1_1_0_0_n_n.lhsIdx_val_of_single rfl j q
theorem rhs_first_0 (j : S512x512.Idx) (q : dot_S512x4096_S512x4096_S512x512_1_1_0_0_n_n.contr.Idx) :
    (dot_S512x4096_S512x4096_S512x512_1_1_0_0_n_n.rhsIdx j q 0).val = (j 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl
theorem rhs_first_1 (j : S512x512.Idx) (q : dot_S512x4096_S512x4096_S512x512_1_1_0_0_n_n.contr.Idx) :
    (dot_S512x4096_S512x4096_S512x512_1_1_0_0_n_n.rhsIdx j q 1).val = (q ⟨0, by decide⟩).val :=
  dot_S512x4096_S512x4096_S512x512_1_1_0_0_n_n.rhsIdx_val_of_single rfl j q

/-- Entry (p, s) of the first product into a zero accumulator: row p of the left operand against row s of the right. -/
theorem first_apply (a : FVec Ideal S512x4096 .bf16) (w : FVec Ideal S512x4096 .bf16) (p s : Fin 512) :
    matmul dot_S512x4096_S512x4096_S512x512_1_1_0_0_n_n none a w (constant S512x512 .f32 0x00000000#32) (ix2 p s)
      = ∑ k : Fin 4096, a (ix2 p k) * w (ix2 s k) := by
  simp only [matmul]
  rw [Ideal.matmul_constant_zero_apply, ← Equiv.sum_comp (ValueIdx.contrEquiv1 dot_S512x4096_S512x4096_S512x512_1_1_0_0_n_n 4096 rfl rfl).symm]
  refine Finset.sum_congr rfl fun k _ => ?_
  have hk := ValueIdx.contrEquiv1_symm_val dot_S512x4096_S512x4096_S512x512_1_1_0_0_n_n 4096 rfl rfl k
  have el : dot_S512x4096_S512x4096_S512x512_1_1_0_0_n_n.lhsIdx (ix2 p s) ((ValueIdx.contrEquiv1 dot_S512x4096_S512x4096_S512x512_1_1_0_0_n_n 4096 rfl rfl).symm k) = ix2 p k := funext fun a => Fin.ext (by
    match a with
    | ⟨0, _⟩ => exact lhs_first_0 _ _
    | ⟨1, _⟩ => exact (lhs_first_1 _ _).trans hk)
  have er : dot_S512x4096_S512x4096_S512x512_1_1_0_0_n_n.rhsIdx (ix2 p s) ((ValueIdx.contrEquiv1 dot_S512x4096_S512x4096_S512x512_1_1_0_0_n_n 4096 rfl rfl).symm k) = ix2 s k := funext fun a => Fin.ext (by
    match a with
    | ⟨0, _⟩ => exact rhs_first_0 _ _
    | ⟨1, _⟩ => exact (rhs_first_1 _ _).trans hk)
  rw [el, er]

/-! ## The second product: rows of the scaled intermediate against rows of w2 -/

theorem lhs_second_0 (j : S512x4096.Idx) (q : dot_S512x512_S4096x512_S512x4096_1_1_0_0_n_n.contr.Idx) :
    (dot_S512x512_S4096x512_S512x4096_1_1_0_0_n_n.lhsIdx j q 0).val = (j 0).val := by
  unfold DotDims.lhsIdx
  rw [dif_neg (show ¬(0 : Fin S512x512.rank) ∈ dot_S512x512_S4096x512_S512x4096_1_1_0_0_n_n.lhsBatch by decide), dif_pos (show (0 : Fin S512x512.rank) ∈ dot_S512x512_S4096x512_S512x4096_1_1_0_0_n_n.lhsNonContracting by decide)]
  rfl
theorem lhs_second_1 (j : S512x4096.Idx) (q : dot_S512x512_S4096x512_S512x4096_1_1_0_0_n_n.contr.Idx) :
    (dot_S512x512_S4096x512_S512x4096_1_1_0_0_n_n.lhsIdx j q 1).val = (q ⟨0, by decide⟩).val :=
  dot_S512x512_S4096x512_S512x4096_1_1_0_0_n_n.lhsIdx_val_of_single rfl j q
theorem rhs_second_0 (j : S512x4096.Idx) (q : dot_S512x512_S4096x512_S512x4096_1_1_0_0_n_n.contr.Idx) :
    (dot_S512x512_S4096x512_S512x4096_1_1_0_0_n_n.rhsIdx j q 0).val = (j 1).val := by
  unfold DotDims.rhsIdx
  rw [dif_neg (show ¬(0 : Fin S4096x512.rank) ∈ dot_S512x512_S4096x512_S512x4096_1_1_0_0_n_n.rhsBatch by decide), dif_pos (show (0 : Fin S4096x512.rank) ∈ dot_S512x512_S4096x512_S512x4096_1_1_0_0_n_n.rhsNonContracting by decide)]
  rfl
theorem rhs_second_1 (j : S512x4096.Idx) (q : dot_S512x512_S4096x512_S512x4096_1_1_0_0_n_n.contr.Idx) :
    (dot_S512x512_S4096x512_S512x4096_1_1_0_0_n_n.rhsIdx j q 1).val = (q ⟨0, by decide⟩).val :=
  dot_S512x512_S4096x512_S512x4096_1_1_0_0_n_n.rhsIdx_val_of_single rfl j q

/-- Entry (p, q) of the second product into a zero accumulator: row p of the left operand against row q of the right. -/
theorem second_apply (h : FVec Ideal S512x512 .bf16) (w : FVec Ideal S4096x512 .bf16) (p : Fin 512) (q : Fin 4096) :
    matmul dot_S512x512_S4096x512_S512x4096_1_1_0_0_n_n none h w (constant S512x4096 .f32 0x00000000#32) (ix2 p q)
      = ∑ s : Fin 512, h (ix2 p s) * w (ix2 q s) := by
  simp only [matmul]
  rw [Ideal.matmul_constant_zero_apply, ← Equiv.sum_comp (ValueIdx.contrEquiv1 dot_S512x512_S4096x512_S512x4096_1_1_0_0_n_n 512 rfl rfl).symm]
  refine Finset.sum_congr rfl fun k _ => ?_
  have hk := ValueIdx.contrEquiv1_symm_val dot_S512x512_S4096x512_S512x4096_1_1_0_0_n_n 512 rfl rfl k
  have el : dot_S512x512_S4096x512_S512x4096_1_1_0_0_n_n.lhsIdx (ix2 p q) ((ValueIdx.contrEquiv1 dot_S512x512_S4096x512_S512x4096_1_1_0_0_n_n 512 rfl rfl).symm k) = ix2 p k := funext fun a => Fin.ext (by
    match a with
    | ⟨0, _⟩ => exact lhs_second_0 _ _
    | ⟨1, _⟩ => exact (lhs_second_1 _ _).trans hk)
  have er : dot_S512x512_S4096x512_S512x4096_1_1_0_0_n_n.rhsIdx (ix2 p q) ((ValueIdx.contrEquiv1 dot_S512x512_S4096x512_S512x4096_1_1_0_0_n_n 512 rfl rfl).symm k) = ix2 q k := funext fun a => Fin.ext (by
    match a with
    | ⟨0, _⟩ => exact rhs_second_0 _ _
    | ⟨1, _⟩ => exact (rhs_second_1 _ _).trans hk)
  rw [el, er]

/-! ## The two broadcasts of a row -/

/-- The rank scale broadcast over the 512 rows of the intermediate: entry (p, s) is g[0, s]. -/
theorem scale_bcast_apply (g : FVec Ideal S1x512 .f32) (p s : Fin 512) :
    broadcastTo S512x512 g broadcasts_S1x512_S512x512 (ix2 p s) = g (ix2 0 s) :=
  broadcastTo_apply g broadcasts_S1x512_S512x512 (ix2 p s) (ix2 0 s) (fun a => match a with
    | ⟨0, _⟩ => by show 0 = if (1 : Nat) = 1 then 0 else _; rw [if_pos rfl]
    | ⟨1, _⟩ => by show s.val = if (512 : Nat) = 1 then 0 else _; rw [if_neg (by decide)]; rfl)

/-- The bias row broadcast over the 512 rows of the block: entry (p, q) is b[0, q]. -/
theorem bias_bcast_apply (b : FVec Ideal S1x4096 .f32) (p : Fin 512) (q : Fin 4096) :
    broadcastTo S512x4096 b broadcasts_S1x4096_S512x4096 (ix2 p q) = b (ix2 0 q) :=
  broadcastTo_apply b broadcasts_S1x4096_S512x4096 (ix2 p q) (ix2 0 q) (fun a => match a with
    | ⟨0, _⟩ => by show 0 = if (1 : Nat) = 1 then 0 else _; rw [if_pos rfl]
    | ⟨1, _⟩ => by show q.val = if (4096 : Nat) = 1 then 0 else _; rw [if_neg (by decide)]; rfl)

/-! ## The stored value -/

/-- Entry (p, q) of what the body stores. -/
theorem pay_apply (x : Vec Ideal S512x4096 .f32) (w1 : Vec Ideal S512x4096 .bf16) (g : Vec Ideal S1x512 .f32)
    (w2 : Vec Ideal S4096x512 .bf16) (b : Vec Ideal S1x4096 .f32) (p : Fin 512) (q : Fin 4096) :
    k0_pay1 x w1 g w2 b (ix2 p q)
      = (∑ s : Fin 512, ((∑ k : Fin 4096, x (ix2 p k) * w1 (ix2 s k)) * g (ix2 0 s)) * w2 (ix2 q s)) + b (ix2 0 q) := by
  unfold k0_pay1
  simp only [shapeCast_self]
  rw [addf_apply, second_apply, bias_bcast_apply]
  refine congrArg (· + b (ix2 0 q)) (Finset.sum_congr rfl fun s _ => ?_)
  rw [truncf_apply, mulf_apply, first_apply, scale_bcast_apply]
  rfl

end Cert.KernelIdeal.Payload

end
-- ==== Proof.KernelValue.lean ====
/-
  The result array of the fused call, entry by entry, and the run of the whole program read at its result.

  The call walks 16 grid points; point t reads rows 512·t … 512·t + 511 of the activations and the four weight arrays
  whole, and writes rows 512·t … 512·t + 511 of the result.  So the sixteen written blocks tile the [8192, 4096] result,
  and entry (n, o) of it is the fused contraction of Spec.lean at row n, column o.  The one host line after the call
  re-lays the result as [4, 2048, 4096].
-/
import proofs.«404562_j75127567941708_3_alg».proof.Proof.KernelArrays
import proofs.«404562_j75127567941708_3_alg».proof.Proof.Payload
import Idealize.ShloMosaic.Lib.Pipeline.Value
import Idealize.ShloMosaic.Lib.ValueIdx
import Idealize.ShloMosaic.Lib.StableHlo.Run

set_option maxRecDepth 16384

noncomputable section

namespace Cert.KernelIdeal.Value

open Cert.KernelIdeal Cert.KernelIdeal.Gen Cert.KernelIdeal.Arrays Cert.LowRank
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result of the call as one function of the arrays it reads. -/
def result (c : Dev nD) : Arr2 8192 4096 :=
  fun i => fusedVal (rows m c) (vcat m c) (scale m c) (ucat m c) (biasRow m c) (i 0) (i 1)

/-! ## The blocks a point reads -/

/-- The five blocks point `t` reads, at their literal shapes. -/
abbrev xblk (c : Dev nD) (t : Fin cfg0.N) : Vec Ideal S512x4096 .f32 := iblk m c 0 t
abbrev w1blk (c : Dev nD) (t : Fin cfg0.N) : Vec Ideal S512x4096 .bf16 := iblk m c 1 t
abbrev gblk (c : Dev nD) (t : Fin cfg0.N) : Vec Ideal S1x512 .f32 := iblk m c 2 t
abbrev w2blk (c : Dev nD) (t : Fin cfg0.N) : Vec Ideal S4096x512 .bf16 := iblk m c 3 t
abbrev bblk (c : Dev nD) (t : Fin cfg0.N) : Vec Ideal S1x4096 .f32 := iblk m c 4 t

/-- The index maps over the grid: the activations and the result move down one block of rows per point, the four
    weight arrays stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The activation block at point `t` is rows 512·t … of the rows array. -/
theorem xblk_apply (c : Dev nD) (t : Fin cfg0.N) (y : S512x4096.Idx) (i : S8192x4096.Idx)
    (h0 : (i 0).val = t.val * 512 + (y 0).val) (h1 : (i 1).val = (y 1).val) :
    xblk m c t y = rows m c i := by
  obtain ⟨e0, e1, -⟩ := idx_facts t
  unfold xblk iblk
  rw [View.read_apply]
  show V m c main_v0 _ = V m c main_v0 _
  congr 1
  funext a
  apply Fin.ext
  match a with
  | ⟨0, _⟩ => show win0_0.index t (0 : Fin 2) * 512 + 1 * (y 0).val = (i 0).val; rw [e0, h0]; omega
  | ⟨1, _⟩ => show win0_0.index t (1 : Fin 2) * 4096 + 1 * (y 1).val = (i 1).val; rw [e1, h1]; omega

/-- The first-stage weights' block is the whole array at every point. -/
theorem w1blk_apply (c : Dev nD) (t : Fin cfg0.N) (y : S512x4096.Idx) : w1blk m c t y = vcat m c y := by
  obtain ⟨-, -, e0, e1, -⟩ := idx_facts t
  unfold w1blk iblk
  rw [View.read_apply]
  show V m c main_v11 _ = V m c main_v11 _
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 4096 + 1 * (y 1).val = (y 1).val; rw [e1]; omega

/-- The rank scale's block is the whole row. -/
theorem gblk_apply (c : Dev nD) (t : Fin cfg0.N) (y : S1x512.Idx) : gblk m c t y = scale m c y := by
  obtain ⟨-, -, -, -, e0, e1, -⟩ := idx_facts t
  unfold gblk iblk
  rw [View.read_apply]
  show V m c main_v23 _ = V m c main_v23 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega

/-- The second-stage weights' block is the whole array. -/
theorem w2blk_apply (c : Dev nD) (t : Fin cfg0.N) (y : S4096x512.Idx) : w2blk m c t y = ucat m c y := by
  obtain ⟨-, -, -, -, -, -, e0, e1, -⟩ := idx_facts t
  unfold w2blk iblk
  rw [View.read_apply]
  show V m c main_v20 _ = V m c main_v20 _
  congr 1
  funext a
  apply Fin.ext
  match a with
  | ⟨0, _⟩ => show win0_3.index t (0 : Fin 2) * 4096 + 1 * (y 0).val = (y 0).val; rw [e0]; omega
  | ⟨1, _⟩ => show win0_3.index t (1 : Fin 2) * 512 + 1 * (y 1).val = (y 1).val; rw [e1]; omega

/-- The bias row's block is the whole row. -/
theorem bblk_apply (c : Dev nD) (t : Fin cfg0.N) (y : S1x4096.Idx) : bblk m c t y = biasRow m c y := by
  obtain ⟨-, -, -, -, -, -, -, -, e0, e1, -⟩ := idx_facts t
  unfold bblk iblk
  rw [View.read_apply]
  show V m c main_v24 _ = V m c main_v24 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 4096 + 1 * (y 1).val = (y 1).val; rw [e1]; omega

/-! ## What a point writes back -/

theorem hz : (![0, 0] : Fin 2 → Nat) = fun _ => 0 := funext fun a => by fin_cases a <;> rfl

/-- What the body stores at point `t`, read at a block index, is `result` at the array index under it. -/
theorem stored_apply (c : Dev nD) (t : Fin cfg0.N) (y : S512x4096.Idx) (i : S8192x4096.Idx)
    (h0 : (i 0).val = t.val * 512 + (y 0).val) (h1 : (i 1).val = (y 1).val) :
    k0_pay1 (xblk m c t) (w1blk m c t) (gblk m c t) (w2blk m c t) (bblk m c t) y = result m c i := by
  obtain ⟨p, q, rfl⟩ : ∃ (p : Fin 512) (q : Fin 4096), y = ix2 p q := ⟨y 0, y 1, eq_ix2 y⟩
  have hq : i 1 = q := Fin.ext h1
  refine (Payload.pay_apply (xblk m c t) (w1blk m c t) (gblk m c t) (w2blk m c t) (bblk m c t) p q).trans ?_
  unfold result fusedVal
  rw [hq, bblk_apply]
  refine congrArg (· + biasRow m c (ix2 0 q)) (Finset.sum_congr rfl fun s _ => ?_)
  rw [gblk_apply, w2blk_apply]
  refine congrArg (fun z => z * scale m c (ix2 0 s) * ucat m c (ix2 q s)) (Finset.sum_congr rfl fun k _ => ?_)
  rw [w1blk_apply, xblk_apply m c t (ix2 p k) (ix2 (i 0) k) h0 rfl]

/-- Point `t` writes back block `t` of `result`. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero hz]
  simp only [View.ld_unit_zero (S := S512x4096) hz, View.ld_unit_zero (S := S1x512) hz, View.ld_unit_zero (S := S4096x512) hz, View.ld_unit_zero (S := S1x4096) hz]
  funext j
  obtain ⟨-, -, -, -, -, -, -, -, -, -, e0, e1⟩ := idx_facts t
  show k0_pay1 (xblk m c t) (w1blk m c t) (gblk m c t) (w2blk m c t) (bblk m c t) j = result m c (((cfg0.win 5).blk t).view.emb j)
  refine stored_apply m c t j _ ?_ ?_
  · show win0_5.index t (0 : Fin 2) * 512 + 1 * (j 0).val = t.val * 512 + (j 0).val
    rw [e0]; omega
  · show win0_5.index t (1 : Fin 2) * 4096 + 1 * (j 1).val = (j 1).val
    rw [e1]; omega

/-! ## The sixteen blocks tile the result -/

/-- An index is under point `t`'s block iff each coordinate is in the block's range on its axis. -/
theorem mem_blk (t : Fin cfg0.N) (i : S8192x4096.Idx) :
    i ∈ ((cfg0.win 5).blk t).view.set ↔ ∀ a : Fin 2, win0_5.index t a * S512x4096.size a ≤ (i a).val ∧ (i a).val < win0_5.index t a * S512x4096.size a + S512x4096.size a := by
  show i ∈ ((View.whole main_v25).slice (win0_5.rect t)).set ↔ _
  rw [View.set_slice_whole, Rect.mem_set_unit]
  exact Iff.rfl

/-- Row `n` is under the block of point `n / 512`. -/
theorem cover (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 16 := N_0
  have ht : (i 0).val / 512 < cfg0.N := by rw [hN]; omega
  obtain ⟨-, -, -, -, -, -, -, -, -, -, e0, e1⟩ := idx_facts ⟨(i 0).val / 512, ht⟩
  refine ⟨⟨(i 0).val / 512, ht⟩, flush0_5 _, ?_⟩
  rw [mem_blk]
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_5.index ⟨(i 0).val / 512, ht⟩ (1 : Fin 2) * 4096 ≤ (i 1).val ∧ (i 1).val < win0_5.index ⟨(i 0).val / 512, ht⟩ (1 : Fin 2) * 4096 + 4096
    rw [e1]
    omega

/-- The result array after the call. -/
theorem final (c : Dev nD) : (dats m 0 c).arrAt 5 cfg0.N = result m c :=
  (dats m 0 c).arrAt_eq_of_cover 5 (result m c) (fun t _ => flushed_eq m c t) cover

/-! ## The host line after the call, and the run -/

/-- The program's result: the call's result re-laid as [4, 2048, 4096]. -/
theorem tail_eq (c : Dev nD) :
    Pipeline.afterTail₀ cfgs (dats m) 0 (V0 m) [hostOps1] c main_v26
      = shapeCast S4x2048x4096 (result m c) shapeCasts_S8192x4096_S4x2048x4096 := by
  unfold Pipeline.afterTail₀
  show StableHlo.after hostOps1 _ (Proc.devRef .tc main_v26) = _
  after_results
  have hw : Pipeline.withArrays (cfgs 0).spec c (V0 m c) (fun w => (dats m 0 c).arrAt w (cfgs 0).N) (Proc.tc.devRef main_v25)
      = result m c :=
    (Pipeline.withArrays_arr spec0 launch0.win.arr_inj c _ _ 5).trans (final m c)
  rw [hw]
  rfl

/-- Every weakly fair execution of the fused program ends with its result at the fused contraction re-laid as
    [4, 2048, 4096], and its fourteen arguments as launched. -/
theorem run : θ_run defs (onTc (τ := τ) (main (F := Ideal))) ⟨m, fun _ => 0, ρ⟩ fun r => ∀ c : Dev nD,
      r.2.mem ((c.tc : Thread nD τ).loc main_v26) = shapeCast S4x2048x4096 (result m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    ⟨((h c).2 main_v26 (Pipeline.mem_restRefs_of main_v26 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩)
    (run_main m ρ)

end Cert.KernelIdeal.Value

end
-- ==== Proof.KernelOperands.lean ====
/-
  The arrays the fused contraction reads, as the host lines before the call leave them, entry by entry.
-/
import proofs.«404562_j75127567941708_3_alg».proof.Proof.KernelArrays
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Operands

open Cert.KernelIdeal Cert.KernelIdeal.Gen Cert.KernelIdeal.Arrays Cert.LowRank
open Idealize.ShloMosaic Idealize.ShloMosaic.TcCoe Idealize.ShloMosaic.ValueIdx Idealize.SL.Sem

variable (m : (ℓ : Loc nD τ sig) → Buf (Elt Ideal) ℓ)

/-! ## The five arrays as the host operations' terms of the arguments -/

/-- The activations as the call finds them: the [4, 2048, 4096] argument re-laid as 8192 rows. -/
theorem rows_eq (c : Dev nD) :
    rows m c = shapeCast S8192x4096 (argX m c) shapeCasts_S4x2048x4096_S8192x4096 := by
  show StableHlo.after hostOps0 (fun b => m (c, b)) (Proc.devRef .tc main_v0) = _
  after_results
  rfl

set_option maxHeartbeats 4000000 in
/-- The first-stage weights: the two branches' sign(V) ⊙ v2 (each row scaled column by column), stacked along the rows. -/
private theorem vcat_term (c : Dev nD) :
    vcat m c = concatenate S512x4096 0
      [⟨S256x4096, truncf (F := Ideal) .bf16 (mulf (F := Ideal) (φ := .f32) (Host.sign (F := Ideal) (φ := .f32) (argV m c)) (broadcastInDim S256x4096 ![0, 1] bcast_S1x4096_S256x4096_0_1 (argv2 m c))) bitsLt_bf16_f32⟩,
       ⟨S256x4096, truncf (F := Ideal) .bf16 (mulf (F := Ideal) (φ := .f32) (Host.sign (F := Ideal) (φ := .f32) (argVR m c)) (broadcastInDim S256x4096 ![0, 1] bcast_S1x4096_S256x4096_0_1 (argv2R m c))) bitsLt_bf16_f32⟩]
      concatenates_S256x4096_S256x4096_S512x4096_d0 := by
  show StableHlo.after hostOps0 (fun b => m (c, b)) (Proc.devRef .tc main_v11) = _
  after_results

set_option maxHeartbeats 4000000 in
/-- The second-stage weights: the two branches' sign(U) ⊙ u1 (each column scaled row by row, u1 re-laid as a column),
    side by side along the columns. -/
private theorem ucat_term (c : Dev nD) :
    ucat m c = concatenate S4096x512 1
      [⟨S4096x256, truncf (F := Ideal) .bf16 (mulf (F := Ideal) (φ := .f32) (Host.sign (F := Ideal) (φ := .f32) (argU m c)) (broadcastInDim S4096x256 ![0, 1] bcast_S4096x1_S4096x256_0_1 (shapeCast S4096x1 (argu1 m c) shapeCasts_S1x4096_S4096x1))) bitsLt_bf16_f32⟩,
       ⟨S4096x256, truncf (F := Ideal) .bf16 (mulf (F := Ideal) (φ := .f32) (Host.sign (F := Ideal) (φ := .f32) (argUR m c)) (broadcastInDim S4096x256 ![0, 1] bcast_S4096x1_S4096x256_0_1 (shapeCast S4096x1 (argu1R m c) shapeCasts_S1x4096_S4096x1))) bitsLt_bf16_f32⟩]
      concatenates_S4096x256_S4096x256_S4096x512_d1 := by
  show StableHlo.after hostOps0 (fun b => m (c, b)) (Proc.devRef .tc main_v20) = _
  after_results
  rfl

set_option maxHeartbeats 4000000 in
/-- The rank scale: the two branches' v1 ⊙ u2, side by side. -/
private theorem scale_term (c : Dev nD) :
    scale m c = concatenate S1x512 1
      [⟨S1x256, mulf (F := Ideal) (φ := .f32) (argv1 m c) (argu2 m c)⟩, ⟨S1x256, mulf (F := Ideal) (φ := .f32) (argv1R m c) (argu2R m c)⟩]
      concatenates_S1x256_S1x256_S1x512_d1 := by
  show StableHlo.after hostOps0 (fun b => m (c, b)) (Proc.devRef .tc main_v23) = _
  after_results

/-- The bias row: the [4096] argument re-laid as [1, 4096]. -/
private theorem biasRow_term (c : Dev nD) :
    biasRow m c = shapeCast S1x4096 (argB m c) shapeCasts_S4096_S1x4096 := by
  show StableHlo.after hostOps0 (fun b => m (c, b)) (Proc.devRef .tc main_v24) = _
  after_results
  rfl

/-! ## The layout operations read at an index, over any arrays of the literal shapes -/

/-- Two [256, 4096] arrays stacked along the rows: row `s` of the stack is row `s` of the first, -/
private theorem stackRows_left {α : Type} (A B : S256x4096.Idx → α) (s : Fin 256) (k : Fin 4096) :
    concatenate S512x4096 0 [⟨S256x4096, A⟩, ⟨S256x4096, B⟩] concatenates_S256x4096_S256x4096_S512x4096_d0
      (ix2 (Fin.castAdd 256 s) k) = A (ix2 s k) :=
  concatenate_pair_apply_left (0 : Fin 2) A B concatenates_S256x4096_S256x4096_S512x4096_d0 (ix2 (Fin.castAdd 256 s) k) rfl (ix2 s k)
    (fun b => match b with | ⟨0, _⟩ => rfl | ⟨1, _⟩ => rfl)

/-- and row `256 + s` is row `s` of the second. -/
private theorem stackRows_right {α : Type} (A B : S256x4096.Idx → α) (s : Fin 256) (k : Fin 4096) :
    concatenate S512x4096 0 [⟨S256x4096, A⟩, ⟨S256x4096, B⟩] concatenates_S256x4096_S256x4096_S512x4096_d0
      (ix2 (Fin.natAdd 256 s) k) = B (ix2 s k) :=
  concatenate_pair_apply_right (0 : Fin 2) A B concatenates_S256x4096_S256x4096_S512x4096_d0 (ix2 (Fin.natAdd 256 s) k) rfl rfl (ix2 s k)
    (fun b hb => match b, hb with | ⟨0, _⟩, hb => absurd rfl hb | ⟨1, _⟩, _ => rfl)
    (by show s.val + 256 = 256 + s.val; omega)

/-- Two [4096, 256] arrays side by side along the columns: column `s` is column `s` of the first, -/
private theorem besideCols_left {α : Type} (A B : S4096x256.Idx → α) (o : Fin 4096) (s : Fin 256) :
    concatenate S4096x512 1 [⟨S4096x256, A⟩, ⟨S4096x256, B⟩] concatenates_S4096x256_S4096x256_S4096x512_d1
      (ix2 o (Fin.castAdd 256 s)) = A (ix2 o s) :=
  concatenate_pair_apply_left (1 : Fin 2) A B concatenates_S4096x256_S4096x256_S4096x512_d1 (ix2 o (Fin.castAdd 256 s)) rfl (ix2 o s)
    (fun b => match b with | ⟨0, _⟩ => rfl | ⟨1, _⟩ => rfl)

/-- and column `256 + s` is column `s` of the second. -/
private theorem besideCols_right {α : Type} (A B : S4096x256.Idx → α) (o : Fin 4096) (s : Fin 256) :
    concatenate S4096x512 1 [⟨S4096x256, A⟩, ⟨S4096x256, B⟩] concatenates_S4096x256_S4096x256_S4096x512_d1
      (ix2 o (Fin.natAdd 256 s)) = B (ix2 o s) :=
  concatenate_pair_apply_right (1 : Fin 2) A B concatenates_S4096x256_S4096x256_S4096x512_d1 (ix2 o (Fin.natAdd 256 s)) rfl rfl (ix2 o s)
    (fun b hb => match b, hb with | ⟨0, _⟩, _ => rfl | ⟨1, _⟩, hb => absurd rfl hb)
    (by show s.val + 256 = 256 + s.val; omega)

/-- Two [1, 256] rows side by side: entry `s` is entry `s` of the first, -/
private theorem besideRow_left {α : Type} (A B : S1x256.Idx → α) (s : Fin 256) :
    concatenate S1x512 1 [⟨S1x256, A⟩, ⟨S1x256, B⟩] concatenates_S1x256_S1x256_S1x512_d1
      (ix2 0 (Fin.castAdd 256 s)) = A (ix2 0 s) :=
  concatenate_pair_apply_left (1 : Fin 2) A B concatenates_S1x256_S1x256_S1x512_d1 (ix2 0 (Fin.castAdd 256 s)) rfl (ix2 0 s)
    (fun b => match b with | ⟨0, _⟩ => rfl | ⟨1, _⟩ => rfl)

/-- and entry `256 + s` is entry `s` of the second. -/
private theorem besideRow_right {α : Type} (A B : S1x256.Idx → α) (s : Fin 256) :
    concatenate S1x512 1 [⟨S1x256, A⟩, ⟨S1x256, B⟩] concatenates_S1x256_S1x256_S1x512_d1
      (ix2 0 (Fin.natAdd 256 s)) = B (ix2 0 s) :=
  concatenate_pair_apply_right (1 : Fin 2) A B concatenates_S1x256_S1x256_S1x512_d1 (ix2 0 (Fin.natAdd 256 s)) rfl rfl (ix2 0 s)
    (fun b hb => match b, hb with | ⟨0, _⟩, _ => rfl | ⟨1, _⟩, hb => absurd rfl hb)
    (by show s.val + 256 = 256 + s.val; omega)

/-- A [1, 4096] row broadcast down 256 rows reads the row's entry in the same column. -/
private theorem bcastRow_apply {α : Type} (x : S1x4096.Idx → α) (s : Fin 256) (k : Fin 4096) :
    broadcastInDim S256x4096 ![0, 1] bcast_S1x4096_S256x4096_0_1 x (ix2 s k) = x (ix2 0 k) :=
  broadcastInDim_apply _ bcast_S1x4096_S256x4096_0_1 x (ix2 s k) (ix2 0 k) (fun a => match a with
    | ⟨0, _⟩ => by show 0 = if (1 : Nat) = 1 then 0 else s.val; rw [if_pos rfl]
    | ⟨1, _⟩ => by show k.val = if (4096 : Nat) = 1 then 0 else k.val; rw [if_neg (by decide)])

/-- A [4096, 1] column broadcast across 256 columns reads the column's entry in the same row. -/
private theorem bcastCol_apply {α : Type} (x : S4096x1.Idx → α) (o : Fin 4096) (s : Fin 256) :
    broadcastInDim S4096x256 ![0, 1] bcast_S4096x1_S4096x256_0_1 x (ix2 o s) = x (ix2 o 0) :=
  broadcastInDim_apply _ bcast_S4096x1_S4096x256_0_1 x (ix2 o s) (ix2 o 0) (fun a => match a with
    | ⟨0, _⟩ => by show o.val = if (4096 : Nat) = 1 then 0 else o.val; rw [if_neg (by decide)]
    | ⟨1, _⟩ => by show 0 = if (1 : Nat) = 1 then 0 else s.val; rw [if_pos rfl])

/-- A [1, 4096] row re-laid as a [4096, 1] column: entry `o` of the column is entry `o` of the row. -/
private theorem rowAsCol_apply {α : Type} (x : S1x4096.Idx → α) (o : Fin 4096) :
    shapeCast S4096x1 x shapeCasts_S1x4096_S4096x1 (ix2 o 0) = x (ix2 0 o) :=
  shapeCast_apply x shapeCasts_S1x4096_S4096x1 (ix2 o 0) (ix2 0 o)
    (by rewrite [Shape.rowMajor_val_two, Shape.rowMajor_val_two]; show 0 * 4096 + o.val = o.val * 1 + 0; omega)

/-- A [4096] vector re-laid as a [1, 4096] row: entry `o` of the row is entry `o` of the vector. -/
private theorem vecAsRow_apply {α : Type} (x : S4096.Idx → α) (o : Fin 4096) :
    shapeCast S1x4096 x shapeCasts_S4096_S1x4096 (ix2 0 o) = x (ix1 o) :=
  shapeCast_apply x shapeCasts_S4096_S1x4096 (ix2 0 o) (ix1 o)
    (by rewrite [Shape.rowMajor_val_one, Shape.rowMajor_val_two]; show o.val = 0 * 4096 + o.val; omega)

/-- The host's sign at an index, at the ideal instance: the extended reals' sign of the entry. -/
private theorem hostSign_apply {s : Shape} (x : FVec Ideal s .f32) (i : s.Idx) :
    Host.sign (F := Ideal) x i = Ideal.sign (x i) := rfl

/-! ## The five arrays entry by entry -/

/-- First-stage weights, first branch: rank row `s` holds sign(V)[s, ·] scaled column by column by v2. -/
theorem vcat_left (c : Dev nD) (s : Fin 256) (k : Fin 4096) :
    vcat m c (ix2 (Fin.castAdd 256 s) k) = Ideal.sign (argV m c (ix2 s k)) * argv2 m c (ix2 0 k) := by
  rw [vcat_term, stackRows_left, truncf_apply, mulf_apply, bcastRow_apply, hostSign_apply]

/-- First-stage weights, second branch: rank row `256 + s` holds sign(V_R)[s, ·] scaled by v2_R. -/
theorem vcat_right (c : Dev nD) (s : Fin 256) (k : Fin 4096) :
    vcat m c (ix2 (Fin.natAdd 256 s) k) = Ideal.sign (argVR m c (ix2 s k)) * argv2R m c (ix2 0 k) := by
  rw [vcat_term, stackRows_right, truncf_apply, mulf_apply, bcastRow_apply, hostSign_apply]

/-- The rank scale, first branch: v1 · u2. -/
theorem scale_left (c : Dev nD) (s : Fin 256) :
    scale m c (ix2 0 (Fin.castAdd 256 s)) = argv1 m c (ix2 0 s) * argu2 m c (ix2 0 s) := by
  rw [scale_term, besideRow_left, mulf_apply]

/-- The rank scale, second branch: v1_R · u2_R. -/
theorem scale_right (c : Dev nD) (s : Fin 256) :
    scale m c (ix2 0 (Fin.natAdd 256 s)) = argv1R m c (ix2 0 s) * argu2R m c (ix2 0 s) := by
  rw [scale_term, besideRow_right, mulf_apply]

/-- Second-stage weights, first branch: column `s` holds sign(U)[·, s] scaled row by row by u1. -/
theorem ucat_left (c : Dev nD) (o : Fin 4096) (s : Fin 256) :
    ucat m c (ix2 o (Fin.castAdd 256 s)) = Ideal.sign (argU m c (ix2 o s)) * argu1 m c (ix2 0 o) := by
  rw [ucat_term, besideCols_left, truncf_apply, mulf_apply, bcastCol_apply, rowAsCol_apply, hostSign_apply]

/-- Second-stage weights, second branch: column `256 + s` holds sign(U_R)[·, s] scaled by u1_R. -/
theorem ucat_right (c : Dev nD) (o : Fin 4096) (s : Fin 256) :
    ucat m c (ix2 o (Fin.natAdd 256 s)) = Ideal.sign (argUR m c (ix2 o s)) * argu1R m c (ix2 0 o) := by
  rw [ucat_term, besideCols_right, truncf_apply, mulf_apply, bcastCol_apply, rowAsCol_apply, hostSign_apply]

/-- The bias as a row. -/
theorem bias_row (c : Dev nD) (o : Fin 4096) :
    biasRow m c (ix2 0 o) = argB m c (ix1 o) := by
  rw [biasRow_term, vecAsRow_apply]

end Cert.KernelIdeal.Operands

end
-- ==== Proof.Algebra.lean ====
/-
  The fused contraction equals the two branches added, entry by entry, when every input entry is a real number.
-/
import proofs.«404562_j75127567941708_3_alg».proof.Proof.Spec
import Mathlib.Algebra.BigOperators.Fin
import Mathlib.Data.EReal.Basic
import Mathlib.Tactic.Ring
import Mathlib.Tactic.Lift

noncomputable section

namespace Cert.LowRank

open Idealize.ShloMosaic Idealize.ShloMosaic.ValueIdx

/-- The inclusion of the reals into the extended reals commutes with finite sums. -/
private theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity over the reals: one contraction over `S + S` rank indices whose weights are the two branches'
    sign factors times the input and output scales is the sum of the two branches, each scaled on the outside. -/
private theorem real_identity {S K : Nat} (x : Fin K → ℝ)
    (a aR : Fin S → Fin K → ℝ) (w wR : Fin K → ℝ) (c cR d dR : Fin S → ℝ) (e eR β : ℝ) :
    ((∑ s : Fin S, ((∑ k : Fin K, x k * (a s k * w k)) * c s) * (d s * e))
        + (∑ s : Fin S, ((∑ k : Fin K, x k * (aR s k * wR k)) * cR s) * (dR s * eR))) + β
      = (((∑ s : Fin S, ((∑ k : Fin K, (x k * w k) * a s k) * c s) * d s) * e)
        + ((∑ s : Fin S, ((∑ k : Fin K, (x k * wR k) * aR s k) * cR s) * dR s) * eR)) + β := by
  have inner : ∀ (a : Fin S → Fin K → ℝ) (w : Fin K → ℝ) (s : Fin S),
      (∑ k : Fin K, x k * (a s k * w k)) = ∑ k : Fin K, (x k * w k) * a s k :=
    fun a w s => Finset.sum_congr rfl (fun k _ => by ring)
  simp only [inner]
  rw [Finset.sum_mul, Finset.sum_mul]
  congr 1
  congr 1 <;> exact Finset.sum_congr rfl (fun s _ => by ring)

/-- A sum over 512 indices is the sum over the first 256 plus the sum over the last 256. -/
private theorem sum_split (f : Fin 512 → EReal) :
    ∑ s : Fin 512, f s = ∑ s : Fin 256, f (Fin.castAdd 256 s) + ∑ s : Fin 256, f (Fin.natAdd 256 s) :=
  Fin.sum_univ_add (a := 256) (b := 256) f

/-- With `Vc`, `sc`, `Uc` the two branches' weights and rank scales laid side by side along the rank axis
    (rank index `s < 256`: the first branch; `256 + s`: the second), the second-stage weights carrying the output
    scale `u1` and the first-stage weights the input scale `v2`, the single contraction over 512 rank indices
    is the sum of the two branches; the bias row is added on both sides. -/
theorem fused_eq_twoBranch
    (X : Arr2 8192 4096) (V : Arr2 256 4096) (U : Arr2 4096 256) (v1 : Arr2 1 256) (v2 u1 : Arr2 1 4096) (u2 : Arr2 1 256)
    (VR : Arr2 256 4096) (UR : Arr2 4096 256) (v1R : Arr2 1 256) (v2R u1R : Arr2 1 4096) (u2R : Arr2 1 256) (b : Arr1 4096)
    (Vc : Arr2 512 4096) (sc : Arr2 1 512) (Uc : Arr2 4096 512) (b2 : Arr2 1 4096)
    (hX : AllReal X) (hV : AllReal V) (hU : AllReal U) (hv1 : AllReal v1) (hv2 : AllReal v2) (hu1 : AllReal u1) (hu2 : AllReal u2)
    (hVR : AllReal VR) (hUR : AllReal UR) (hv1R : AllReal v1R) (hv2R : AllReal v2R) (hu1R : AllReal u1R) (hu2R : AllReal u2R)
    (hb : AllReal b)
    (hVcL : ∀ (s : Fin 256) (k : Fin 4096), Vc (ix2 (Fin.castAdd 256 s) k) = Ideal.sign (V (ix2 s k)) * v2 (ix2 0 k))
    (hVcR : ∀ (s : Fin 256) (k : Fin 4096), Vc (ix2 (Fin.natAdd 256 s) k) = Ideal.sign (VR (ix2 s k)) * v2R (ix2 0 k))
    (hscL : ∀ s : Fin 256, sc (ix2 0 (Fin.castAdd 256 s)) = v1 (ix2 0 s) * u2 (ix2 0 s))
    (hscR : ∀ s : Fin 256, sc (ix2 0 (Fin.natAdd 256 s)) = v1R (ix2 0 s) * u2R (ix2 0 s))
    (hUcL : ∀ (o : Fin 4096) (s : Fin 256), Uc (ix2 o (Fin.castAdd 256 s)) = Ideal.sign (U (ix2 o s)) * u1 (ix2 0 o))
    (hUcR : ∀ (o : Fin 4096) (s : Fin 256), Uc (ix2 o (Fin.natAdd 256 s)) = Ideal.sign (UR (ix2 o s)) * u1R (ix2 0 o))
    (hb2 : ∀ o : Fin 4096, b2 (ix2 0 o) = b (ix1 o))
    (n : Fin 8192) (o : Fin 4096) :
    fusedVal X Vc sc Uc b2 n o = twoBranchVal X V U v1 v2 u1 u2 VR UR v1R v2R u1R u2R b n o := by
  unfold fusedVal twoBranchVal branchVal
  lift X to (⟨2, ![8192, 4096]⟩ : Shape).Idx → ℝ using hX
  lift V to (⟨2, ![256, 4096]⟩ : Shape).Idx → ℝ using hV
  lift U to (⟨2, ![4096, 256]⟩ : Shape).Idx → ℝ using hU
  lift v1 to (⟨2, ![1, 256]⟩ : Shape).Idx → ℝ using hv1
  lift v2 to (⟨2, ![1, 4096]⟩ : Shape).Idx → ℝ using hv2
  lift u1 to (⟨2, ![1, 4096]⟩ : Shape).Idx → ℝ using hu1
  lift u2 to (⟨2, ![1, 256]⟩ : Shape).Idx → ℝ using hu2
  lift VR to (⟨2, ![256, 4096]⟩ : Shape).Idx → ℝ using hVR
  lift UR to (⟨2, ![4096, 256]⟩ : Shape).Idx → ℝ using hUR
  lift v1R to (⟨2, ![1, 256]⟩ : Shape).Idx → ℝ using hv1R
  lift v2R to (⟨2, ![1, 4096]⟩ : Shape).Idx → ℝ using hv2R
  lift u1R to (⟨2, ![1, 4096]⟩ : Shape).Idx → ℝ using hu1R
  lift u2R to (⟨2, ![1, 256]⟩ : Shape).Idx → ℝ using hu2R
  lift b to (⟨1, ![4096]⟩ : Shape).Idx → ℝ using hb
  rw [sum_split]
  simp only [hVcL, hVcR, hscL, hscR, hUcL, hUcR, hb2, Ideal.sign_coe]
  simp only [← EReal.coe_mul, ← coe_finset_sum, ← EReal.coe_add]
  rw [EReal.coe_eq_coe_iff]
  exact real_identity (S := 256) (K := 4096) (fun k => X (ix2 n k))
    (fun s k => ((SignType.sign (V (ix2 s k)) : SignType) : ℝ)) (fun s k => ((SignType.sign (VR (ix2 s k)) : SignType) : ℝ))
    (fun k => v2 (ix2 0 k)) (fun k => v2R (ix2 0 k))
    (fun s => v1 (ix2 0 s) * u2 (ix2 0 s)) (fun s => v1R (ix2 0 s) * u2R (ix2 0 s))
    (fun s => ((SignType.sign (U (ix2 o s)) : SignType) : ℝ)) (fun s => ((SignType.sign (UR (ix2 o s)) : SignType) : ℝ))
    (u1 (ix2 0 o)) (u1R (ix2 0 o)) (b (ix1 o))

end Cert.LowRank

end
-- ==== Proof.RefValue.lean ====
/-
  The reference's result before its last re-laying, entry by entry: the two branches added, then the bias.
-/
import proofs.«404562_j75127567941708_3_alg».proof.Proof.Gen.ReferenceIdeal.Read
import proofs.«404562_j75127567941708_3_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.LowRank
open Idealize.ShloMosaic Idealize.ShloMosaic.TcCoe Idealize.ShloMosaic.ValueIdx Idealize.SL.Sem

/-- The first contraction of the first branch at row `j 0`, rank index `j 1`: the activations scaled by input
    column against the signs of the first factor. -/
private theorem first_contract_one (x0 : (⟨S4x2048x4096, .f32⟩ : BufTy).Contents (Elt Ideal)) (x1 : (⟨S256x4096, .f32⟩ : BufTy).Contents (Elt Ideal)) (x4 : (⟨S1x4096, .f32⟩ : BufTy).Contents (Elt Ideal))
    (j : S8192x256.Idx) :
    val_main_v6 (F := Ideal) x0 x1 x4 j
      = ∑ k : Fin 4096, (val_main_v0 (F := Ideal) x0 (ix2 (j 0) k) * x4 (ix2 0 k)) * Ideal.sign (x1 (ix2 (j 1) k)) := by
  rw [val_main_v6_apply]
  refine Finset.sum_congr rfl fun k _ => ?_
  rw [val_main_v4_apply, val_main_v5_apply, val_main_v3_apply, val_main_v1_apply]
  have e0 : lidx_main_v6 j k = ix2 (j 0) k := funext fun a => Fin.ext (by match a with | ⟨0, _⟩ => rfl | ⟨1, _⟩ => rfl)
  have e1 : idx_main_v3 (lidx_main_v6 j k) = ix2 0 k := funext fun a => Fin.ext (by match a with | ⟨0, _⟩ => rfl | ⟨1, _⟩ => rfl)
  have e2 : idx_main_v5 (ridx_main_v6 j k) = ix2 (j 1) k := funext fun a => Fin.ext (by match a with | ⟨0, _⟩ => rfl | ⟨1, _⟩ => rfl)
  rw [e1, e2, e0]
  rfl

/-- The first branch at entry `i`: the first contraction scaled by rank, contracted against the signs of the second
    factor, then scaled by output column. -/
private theorem branch_one (x0 : (⟨S4x2048x4096, .f32⟩ : BufTy).Contents (Elt Ideal)) (x1 : (⟨S256x4096, .f32⟩ : BufTy).Contents (Elt Ideal)) (x2 : (⟨S4096x256, .f32⟩ : BufTy).Contents (Elt Ideal))
    (x3 : (⟨S1x256, .f32⟩ : BufTy).Contents (Elt Ideal)) (x4 x5 : (⟨S1x4096, .f32⟩ : BufTy).Contents (Elt Ideal)) (x6 : (⟨S1x256, .f32⟩ : BufTy).Contents (Elt Ideal)) (i : S8192x4096.Idx) :
    val_main_v13 (F := Ideal) x0 x1 x2 x3 x4 x5 x6 i
      = branchVal (val_main_v0 (F := Ideal) x0) x1 x2 x3 x4 x5 x6 (i 0) (i 1) := by
  unfold branchVal
  rw [val_main_v13_apply, val_main_v11_apply, val_main_v12_apply]
  have eo : idx_main_v12 i = ix2 0 (i 1) := funext fun a => Fin.ext (by match a with | ⟨0, _⟩ => rfl | ⟨1, _⟩ => rfl)
  rw [eo]
  have es : ∀ s : Fin 256,
      val_main_v9 (F := Ideal) x0 x1 x3 x4 x6 (lidx_main_v11 i s) * val_main_v10 (F := Ideal) x2 (ridx_main_v11 i s)
        = ((∑ k : Fin 4096, (val_main_v0 (F := Ideal) x0 (ix2 (i 0) k) * x4 (ix2 0 k)) * Ideal.sign (x1 (ix2 s k)))
            * (x3 (ix2 0 s) * x6 (ix2 0 s))) * Ideal.sign (x2 (ix2 (i 1) s)) := by
    intro s
    rw [val_main_v9_apply, val_main_v10_apply, first_contract_one, val_main_v8_apply, val_main_v7_apply,
      val_main_v2_apply]
    have e3 : idx_main_v8 (lidx_main_v11 i s) = ix2 0 s := funext fun a => Fin.ext (by match a with | ⟨0, _⟩ => rfl | ⟨1, _⟩ => rfl)
    have e4 : idx_main_v10 (ridx_main_v11 i s) = ix2 (i 1) s := funext fun a => Fin.ext (by match a with | ⟨0, _⟩ => rfl | ⟨1, _⟩ => rfl)
    rw [e3, e4]
    rfl
  rw [Finset.sum_congr rfl fun s _ => es s]
  rfl

/-- The first contraction of the second branch at row `j 0`, rank index `j 1`: the activations scaled by input
    column against the signs of the first factor. -/
private theorem first_contract_two (x0 : (⟨S4x2048x4096, .f32⟩ : BufTy).Contents (Elt Ideal)) (x7 : (⟨S256x4096, .f32⟩ : BufTy).Contents (Elt Ideal)) (x10 : (⟨S1x4096, .f32⟩ : BufTy).Contents (Elt Ideal))
    (j : S8192x256.Idx) :
    val_main_v19 (F := Ideal) x0 x7 x10 j
      = ∑ k : Fin 4096, (val_main_v0 (F := Ideal) x0 (ix2 (j 0) k) * x10 (ix2 0 k)) * Ideal.sign (x7 (ix2 (j 1) k)) := by
  rw [val_main_v19_apply]
  refine Finset.sum_congr rfl fun k _ => ?_
  rw [val_main_v17_apply, val_main_v18_apply, val_main_v16_apply, val_main_v14_apply]
  have e0 : lidx_main_v19 j k = ix2 (j 0) k := funext fun a => Fin.ext (by match a with | ⟨0, _⟩ => rfl | ⟨1, _⟩ => rfl)
  have e1 : idx_main_v16 (lidx_main_v19 j k) = ix2 0 k := funext fun a => Fin.ext (by match a with | ⟨0, _⟩ => rfl | ⟨1, _⟩ => rfl)
  have e2 : idx_main_v18 (ridx_main_v19 j k) = ix2 (j 1) k := funext fun a => Fin.ext (by match a with | ⟨0, _⟩ => rfl | ⟨1, _⟩ => rfl)
  rw [e1, e2, e0]
  rfl

/-- The second branch at entry `i`: the first contraction scaled by rank, contracted against the signs of the second
    factor, then scaled by output column. -/
private theorem branch_two (x0 : (⟨S4x2048x4096, .f32⟩ : BufTy).Contents (Elt Ideal)) (x7 : (⟨S256x4096, .f32⟩ : BufTy).Contents (Elt Ideal)) (x8 : (⟨S4096x256, .f32⟩ : BufTy).Contents (Elt Ideal))
    (x9 : (⟨S1x256, .f32⟩ : BufTy).Contents (Elt Ideal)) (x10 x11 : (⟨S1x4096, .f32⟩ : BufTy).Contents (Elt Ideal)) (x12 : (⟨S1x256, .f32⟩ : BufTy).Contents (Elt Ideal)) (i : S8192x4096.Idx) :
    val_main_v26 (F := Ideal) x0 x7 x8 x9 x10 x11 x12 i
      = branchVal (val_main_v0 (F := Ideal) x0) x7 x8 x9 x10 x11 x12 (i 0) (i 1) := by
  unfold branchVal
  rw [val_main_v26_apply, val_main_v24_apply, val_main_v25_apply]
  have eo : idx_main_v25 i = ix2 0 (i 1) := funext fun a => Fin.ext (by match a with | ⟨0, _⟩ => rfl | ⟨1, _⟩ => rfl)
  rw [eo]
  have es : ∀ s : Fin 256,
      val_main_v22 (F := Ideal) x0 x7 x9 x10 x12 (lidx_main_v24 i s) * val_main_v23 (F := Ideal) x8 (ridx_main_v24 i s)
        = ((∑ k : Fin 4096, (val_main_v0 (F := Ideal) x0 (ix2 (i 0) k) * x10 (ix2 0 k)) * Ideal.sign (x7 (ix2 s k)))
            * (x9 (ix2 0 s) * x12 (ix2 0 s))) * Ideal.sign (x8 (ix2 (i 1) s)) := by
    intro s
    rw [val_main_v22_apply, val_main_v23_apply, first_contract_two, val_main_v21_apply, val_main_v20_apply,
      val_main_v15_apply]
    have e3 : idx_main_v21 (lidx_main_v24 i s) = ix2 0 s := funext fun a => Fin.ext (by match a with | ⟨0, _⟩ => rfl | ⟨1, _⟩ => rfl)
    have e4 : idx_main_v23 (ridx_main_v24 i s) = ix2 (i 1) s := funext fun a => Fin.ext (by match a with | ⟨0, _⟩ => rfl | ⟨1, _⟩ => rfl)
    rw [e3, e4]
    rfl
  rw [Finset.sum_congr rfl fun s _ => es s]
  rfl

/-- Entry (n, o) of the reference's [8192, 4096] result: each branch contracts the scaled activations with the signs of
    its first factor, scales by rank, contracts with the signs of its second factor and scales by output column. -/
theorem ref_at (x0 : (⟨S4x2048x4096, .f32⟩ : BufTy).Contents (Elt Ideal)) (x1 : (⟨S256x4096, .f32⟩ : BufTy).Contents (Elt Ideal))
    (x2 : (⟨S4096x256, .f32⟩ : BufTy).Contents (Elt Ideal)) (x3 : (⟨S1x256, .f32⟩ : BufTy).Contents (Elt Ideal))
    (x4 x5 : (⟨S1x4096, .f32⟩ : BufTy).Contents (Elt Ideal)) (x6 : (⟨S1x256, .f32⟩ : BufTy).Contents (Elt Ideal))
    (x7 : (⟨S256x4096, .f32⟩ : BufTy).Contents (Elt Ideal)) (x8 : (⟨S4096x256, .f32⟩ : BufTy).Contents (Elt Ideal))
    (x9 : (⟨S1x256, .f32⟩ : BufTy).Contents (Elt Ideal)) (x10 x11 : (⟨S1x4096, .f32⟩ : BufTy).Contents (Elt Ideal))
    (x12 : (⟨S1x256, .f32⟩ : BufTy).Contents (Elt Ideal)) (x13 : (⟨S4096, .f32⟩ : BufTy).Contents (Elt Ideal)) (i : S8192x4096.Idx) :
    val_main_v30 (F := Ideal) x0 x1 x2 x3 x4 x5 x6 x7 x8 x9 x10 x11 x12 x13 i
      = twoBranchVal (val_main_v0 (F := Ideal) x0) x1 x2 x3 x4 x5 x6 x7 x8 x9 x10 x11 x12 x13 (i 0) (i 1) := by
  unfold twoBranchVal
  rw [val_main_v30_apply, val_main_v27_apply, val_main_v29_apply, val_main_v28_apply, branch_one, branch_two]
  -- the bias row, spread over the rows, is read at the output column
  have eb : idx_main_v28 (idx_main_v29 i) = ix1 (i 1) := funext fun a => Fin.ext (by match a with | ⟨0, _⟩ => rfl)
  rw [eb]
  rfl

/-- Re-laying the activations as rows keeps every entry real. -/
theorem rows_allReal (x0 : (⟨S4x2048x4096, .f32⟩ : BufTy).Contents (Elt Ideal)) (h : AllReal (ι := S4x2048x4096.Idx) x0) :
    AllReal (ι := S8192x4096.Idx) (val_main_v0 (F := Ideal) x0) := by
  intro i
  rw [val_main_v0_apply]
  exact h (idx_main_v0 i)

end Cert.ReferenceIdeal.RefValue

end
-- ==== Proof.Bridge.lean ====
/-
  The fused program's result equals the reference's, entry by entry, when every input entry is a real number.

  The call's result array is the fused contraction over the 512 concatenated rank indices (KernelValue.lean) of arrays
  whose entries are the two branches' sign factors times the input and output scales (KernelOperands.lean); the
  reference's result before its last re-laying is the two branches added plus the bias (RefValue.lean); and the two
  are one number at every entry by distributivity over the reals (Algebra.lean).  Both programs read the activations
  through the same re-laying of [4, 2048, 4096] as 8192 rows.
-/
import proofs.«404562_j75127567941708_3_alg».proof.Proof.KernelValue
import proofs.«404562_j75127567941708_3_alg».proof.Proof.KernelOperands
import proofs.«404562_j75127567941708_3_alg».proof.Proof.Algebra
import proofs.«404562_j75127567941708_3_alg».proof.Proof.RefValue

noncomputable section

namespace Cert.Bridge

open Idealize.ShloMosaic Idealize.ShloMosaic.TcCoe Idealize.SL.Sem
open Cert.LowRank Cert.KernelIdeal.Arrays

/-- The call's result array is the reference's [8192, 4096] result of the same fourteen arguments. -/
theorem result_eq_ref (m : (ℓ : Loc Cert.KernelIdeal.nD Cert.KernelIdeal.τ Cert.KernelIdeal.sig) → Buf (Elt Ideal) ℓ)
    (c : Dev Cert.KernelIdeal.nD)
    (hX : AllReal (argX m c)) (hV : AllReal (argV m c)) (hU : AllReal (argU m c)) (hv1 : AllReal (argv1 m c))
    (hv2 : AllReal (argv2 m c)) (hu1 : AllReal (argu1 m c)) (hu2 : AllReal (argu2 m c))
    (hVR : AllReal (argVR m c)) (hUR : AllReal (argUR m c)) (hv1R : AllReal (argv1R m c))
    (hv2R : AllReal (argv2R m c)) (hu1R : AllReal (argu1R m c)) (hu2R : AllReal (argu2R m c)) (hB : AllReal (argB m c)) :
    Cert.KernelIdeal.Value.result m c
      = Cert.ReferenceIdeal.Read.val_main_v30 (F := Ideal) (argX m c) (argV m c) (argU m c) (argv1 m c) (argv2 m c)
          (argu1 m c) (argu2 m c) (argVR m c) (argUR m c) (argv1R m c) (argv2R m c) (argu1R m c) (argu2R m c) (argB m c) := by
  funext i
  rw [Cert.ReferenceIdeal.RefValue.ref_at]
  have hrows : rows m c = Cert.ReferenceIdeal.Read.val_main_v0 (F := Ideal) (argX m c) :=
    Cert.KernelIdeal.Operands.rows_eq m c
  unfold Cert.KernelIdeal.Value.result
  rw [hrows]
  exact fused_eq_twoBranch (Cert.ReferenceIdeal.Read.val_main_v0 (F := Ideal) (argX m c)) (argV m c) (argU m c) (argv1 m c)
    (argv2 m c) (argu1 m c) (argu2 m c) (argVR m c) (argUR m c) (argv1R m c) (argv2R m c) (argu1R m c) (argu2R m c) (argB m c)
    (vcat m c) (scale m c) (ucat m c) (biasRow m c)
    (Cert.ReferenceIdeal.RefValue.rows_allReal (argX m c) hX) hV hU hv1 hv2 hu1 hu2 hVR hUR hv1R hv2R hu1R hu2R hB
    (Cert.KernelIdeal.Operands.vcat_left m c) (Cert.KernelIdeal.Operands.vcat_right m c)
    (Cert.KernelIdeal.Operands.scale_left m c) (Cert.KernelIdeal.Operands.scale_right m c)
    (Cert.KernelIdeal.Operands.ucat_left m c) (Cert.KernelIdeal.Operands.ucat_right m c)
    (Cert.KernelIdeal.Operands.bias_row m c) (i 0) (i 1)

end Cert.Bridge

end
-- ==== Proof.Finite.lean ====
/-
  The precondition says every entry of every input is a real number.
-/
import proofs.«404562_j75127567941708_3_alg».proof.Pre_finite_inputs
import proofs.«404562_j75127567941708_3_alg».proof.Proof.Gen.Pre_finite_inputs
import proofs.«404562_j75127567941708_3_alg».proof.Proof.Spec
import Idealize.ShloMosaic.Lib.ReduceAll
import Idealize.ShloMosaic.Lib.ValueIdx

noncomputable section

namespace Cert.Pre_finite_inputs.Finite

open Cert.Pre_finite_inputs Cert.LowRank
open Idealize.ShloMosaic Idealize.ShloMosaic.ValueIdx

/-- The scalar shape has one index. -/
private theorem subsingleton_S_ : Subsingleton S_.Idx := ⟨fun a b => funext fun d => d.elim0⟩
attribute [local instance] subsingleton_S_

/-- The pattern 0x7F800000 denotes +inf. -/
private theorem ofBits_inf : Ideal.ofBits .f32 0x7F800000#32 = (⊤ : EReal) := by
  simp [Ideal.ofBits, Ideal.ieee]

/-- An extended real whose absolute value max x (-x) is below +inf is neither infinity. -/
private theorem real_of_abs_lt_top (x : EReal) (h : Ideal.cmp .olt (max x (-x)) ⊤ = 1#1) : x ≠ ⊤ ∧ x ≠ ⊥ := by
  induction x using EReal.rec with
  | bot => simp [Ideal.cmp] at h
  | top => simp [Ideal.cmp] at h
  | coe r => exact ⟨EReal.coe_ne_top r, EReal.coe_ne_bot r⟩

/-- An all-reduce by "and" of the array (|x| < +inf) that comes out one says every entry of x is real. -/
private theorem allReal_of_reduce {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) :
    AllReal (ι := s.Idx) x := by
  intro i
  have hi := Host.reduce_andi_all _ _ hr hu ix0 e i
  apply real_of_abs_lt_top
  rw [← ofBits_inf]
  exact hi

/-- A conjunction of two one-bit scalars is one exactly when both are. -/
private theorem andi_split {x y : IVec S_ 1} (h : andi x y ix0 = 1#1) : x ix0 = 1#1 ∧ y ix0 = 1#1 :=
  IntOp.andi_eq_one.1 h

/-- If the printed predicate (every |entry| below +inf, all fourteen inputs, and-ed) is all ones, every entry of every
    input is neither +inf nor -inf. -/
theorem allReal_of_pre [Cert.Pre_finite_inputs.Facts]
    (a0 : FVec Ideal S4x2048x4096 .f32) (a1 : FVec Ideal S256x4096 .f32) (a2 : FVec Ideal S4096x256 .f32) (a3 : FVec Ideal S1x256 .f32)
    (a4 a5 : FVec Ideal S1x4096 .f32) (a6 : FVec Ideal S1x256 .f32) (a7 : FVec Ideal S256x4096 .f32) (a8 : FVec Ideal S4096x256 .f32)
    (a9 : FVec Ideal S1x256 .f32) (a10 a11 : FVec Ideal S1x4096 .f32) (a12 : FVec Ideal S1x256 .f32) (a13 : FVec Ideal S4096 .f32)
    (h : Cert.Pre_finite_inputs.fn (F := Ideal) a0 a1 a2 a3 a4 a5 a6 a7 a8 a9 a10 a11 a12 a13 = fun _ => 1#1) :
    AllReal (ι := S4x2048x4096.Idx) a0 ∧ AllReal (ι := S256x4096.Idx) a1 ∧ AllReal (ι := S4096x256.Idx) a2 ∧ AllReal (ι := S1x256.Idx) a3
      ∧ AllReal (ι := S1x4096.Idx) a4 ∧ AllReal (ι := S1x4096.Idx) a5 ∧ AllReal (ι := S1x256.Idx) a6 ∧ AllReal (ι := S256x4096.Idx) a7
      ∧ AllReal (ι := S4096x256.Idx) a8 ∧ AllReal (ι := S1x256.Idx) a9 ∧ AllReal (ι := S1x4096.Idx) a10 ∧ AllReal (ι := S1x4096.Idx) a11
      ∧ AllReal (ι := S1x256.Idx) a12 ∧ AllReal (ι := S4096.Idx) a13 := by
  -- the predicate at its one index, with the chain of "and"s in view
  have h0 := congrFun h ix0
  dsimp only [fn, fn_part1, fn_part2, fn_part3, fn_part4] at h0
  -- the chain is left-nested: peel the last conjunct thirteen times
  obtain ⟨h0, e13⟩ := andi_split h0
  obtain ⟨h0, e12⟩ := andi_split h0
  obtain ⟨h0, e11⟩ := andi_split h0
  obtain ⟨h0, e10⟩ := andi_split h0
  obtain ⟨h0, e9⟩ := andi_split h0
  obtain ⟨h0, e8⟩ := andi_split h0
  obtain ⟨h0, e7⟩ := andi_split h0
  obtain ⟨h0, e6⟩ := andi_split h0
  obtain ⟨h0, e5⟩ := andi_split h0
  obtain ⟨h0, e4⟩ := andi_split h0
  obtain ⟨h0, e3⟩ := andi_split h0
  obtain ⟨h0, e2⟩ := andi_split h0
  obtain ⟨e0, e1⟩ := andi_split h0
  -- each conjunct is an all-reduce of (|x| < +inf)
  exact ⟨allReal_of_reduce a0 _ _ _ e0, allReal_of_reduce a1 _ _ _ e1, allReal_of_reduce a2 _ _ _ e2,
    allReal_of_reduce a3 _ _ _ e3, allReal_of_reduce a4 _ _ _ e4, allReal_of_reduce a5 _ _ _ e5,
    allReal_of_reduce a6 _ _ _ e6, allReal_of_reduce a7 _ _ _ e7, allReal_of_reduce a8 _ _ _ e8,
    allReal_of_reduce a9 _ _ _ e9, allReal_of_reduce a10 _ _ _ e10, allReal_of_reduce a11 _ _ _ e11,
    allReal_of_reduce a12 _ _ _ e12, allReal_of_reduce a13 _ _ _ e13⟩

end Cert.Pre_finite_inputs.Finite

end
-- ==== Proof.lean ====
/-
  The certificate of a fused low-rank layer against its two-branch reference, over the extended reals.

  The layer is y = u1 ⊙ (sign(U) · ((v1 ⊙ u2) ⊙ (sign(V) · (v2 ⊙ x)))) summed over two branches, plus a bias.  The
  fused program folds the input scale v2 into the columns of sign(V) and the output scale u1 into the rows of sign(U),
  stacks the two branches along the rank axis, and computes both branches with ONE pair of matrix products over the 512
  concatenated rank indices.  With every input entry a real number (the precondition) the two programs agree entry by
  entry: the sum over 512 rank indices splits into the two branches' sums over 256, and the folded scales move out of
  the sums by distributivity, which holds on the reals and is why finiteness is used.

  The three frames: the two kernel programs' by their generated frame proofs, the reference's by its generated run with
  the result dropped.  The idealization rewrote nothing, so its claim is trivial.  The value claim: the fused program's
  run read at its result (Proof/KernelValue.lean), the reference's generated run, and the entry-by-entry equality
  (Proof/Bridge.lean) under the finiteness the precondition gives (Proof/Finite.lean).
-/
import proofs.«404562_j75127567941708_3_alg».proof.Defs
import proofs.«404562_j75127567941708_3_alg».proof.Proof.Gen.Kernel
import proofs.«404562_j75127567941708_3_alg».proof.Proof.Gen.Kernel.Skeleton
import proofs.«404562_j75127567941708_3_alg».proof.Proof.Gen.Kernel.Launch
import proofs.«404562_j75127567941708_3_alg».proof.Proof.Gen.Kernel.Points
import proofs.«404562_j75127567941708_3_alg».proof.Proof.Gen.Kernel.Frame
import proofs.«404562_j75127567941708_3_alg».proof.Proof.Gen.KernelIdeal
import proofs.«404562_j75127567941708_3_alg».proof.Proof.Gen.KernelIdeal.Skeleton
import proofs.«404562_j75127567941708_3_alg».proof.Proof.Gen.KernelIdeal.Launch
import proofs.«404562_j75127567941708_3_alg».proof.Proof.Gen.KernelIdeal.Points
import proofs.«404562_j75127567941708_3_alg».proof.Proof.Gen.KernelIdeal.Frame
import proofs.«404562_j75127567941708_3_alg».proof.Proof.Gen.ReferenceIdeal
import proofs.«404562_j75127567941708_3_alg».proof.Proof.Gen.Pre_finite_inputs
import proofs.«404562_j75127567941708_3_alg».proof.Proof.Gen.ReferenceIdeal.Run
import proofs.«404562_j75127567941708_3_alg».proof.Proof.Gen.ReferenceIdeal.Read
import proofs.«404562_j75127567941708_3_alg».proof.Proof.Bridge
import proofs.«404562_j75127567941708_3_alg».proof.Proof.Finite
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_kernel : Cert.frame_Kernel := fun m ρ _ => Cert.Kernel.Gen.frame m ρ

/-- So does the same program read over the extended reals. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the reading over the extended reals. -/
theorem preserves : Cert.preserves_Kernel_KernelIdeal := trivial

/-- From memories agreeing on the fourteen arguments, all entries real, both programs end with the same result:
    the fused contraction re-laid as [4, 2048, 4096] on one side, the two branches plus bias re-laid the same way on the
    other, equal entry by entry before the re-laying. -/
theorem algebraic : Cert.algebraic_KernelIdeal_ReferenceIdeal := by
  intro m ρ m' ρ' hpre hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [a0, a1, a2, a3, a4, a5, a6, a7, a8, a9, a10, a11, a12, a13]
  obtain ⟨f0, f1, f2, f3, f4, f5, f6, f7, f8, f9, f10, f11, f12, f13⟩ :=
    Cert.Pre_finite_inputs.Finite.allReal_of_pre _ _ _ _ _ _ _ _ _ _ _ _ _ _ (hpre c)
  rw [Cert.Bridge.result_eq_ref m c f0 f1 f2 f3 f4 f5 f6 f7 f8 f9 f10 f11 f12 f13]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
